-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x512 : Shape := ⟨2, ![4096, 512]⟩
abbrev S4096x64 : Shape := ⟨2, ![4096, 64]⟩
abbrev S64x1024 : Shape := ⟨2, ![64, 1024]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096x64 : S_.BroadcastsInDim S4096x64 (![] : Fin 0 → Fin S4096x64.rank)
  reducesTo_S4096x64_S_d0_1 : S4096x64.ReducesTo [0, 1] S_
  bcast_S_S64x1024 : S_.BroadcastsInDim S64x1024 (![] : Fin 0 → Fin S64x1024.rank)
  reducesTo_S64x1024_S_d0_1 : S64x1024.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024x1024 .f32) (main_arg12 : FVec F S1024 .f32) (main_arg13 : FVec F S1024x1024 .f32) (main_arg14 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_v63 main_v67

def fn_part2 {F : FTy → Type} [FloatOps F] (main_arg7 : FVec F S64x1024 .f32) (main_arg8 : FVec F S512x1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_v33 : IVec S_ 1) : IVec S_ 1 :=
  let main_v34 : FVec F S64x1024 .f32 := Host.absf main_arg7
  let main_cst_12 : FVec F S_ .f32 := constant S_ .f32 0x7F800000#32
  let main_v35 : FVec F S64x1024 .f32 := broadcastInDim S64x1024 ![] bcast_S_S64x1024 main_cst_12
  let main_v36 : IVec S64x1024 1 := cmpf .olt main_v34 main_v35
  let main_c_13 : IVec S_ 1 := constantI S_ 1 1#1
  let main_v37 : IVec S_ 1 := (fun x v => Host.reduce IntOp.andi x v reducesTo_S64x1024_S_d0_1 h_S_) main_v36 main_c_13
  let main_v38 : IVec S_ 1 := andi main_v33 main_v37
  let main_v39 : FVec F S512x1024 .f32 := Host.absf main_arg8
  let main_cst_14 : FVec F S_ .f32 := constant S_ .f32 0x7F800000#32
  let main_v40 : FVec F S512x1024 .f32 := broadcastInDim S512x1024 ![] bcast_S_S512x1024 main_cst_14
  let main_v41 : IVec S512x1024 1 := cmpf .olt main_v39 main_v40
  let main_c_15 : IVec S_ 1 := constantI S_ 1 1#1
  let main_v42 : IVec S_ 1 := (fun x v => Host.reduce IntOp.andi x v reducesTo_S512x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S512x1024 .f32) (main_arg5 : FVec F S64x1024 .f32) (main_arg6 : FVec F S512x1024 .f32) (main_arg7 : FVec F S64x1024 .f32) (main_arg8 : FVec F S512x1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S64x1024 .f32 := Host.absf main_arg5
  let main_cst_8 : FVec F S_ .f32 := constant S_ .f32 0x7F800000#32
  let main_v25 : FVec F S64x1024 .f32 := broadcastInDim S64x1024 ![] bcast_S_S64x1024 main_cst_8
  let main_v26 : IVec S64x1024 1 := cmpf .olt main_v24 main_v25
  let main_c_9 : IVec S_ 1 := constantI S_ 1 1#1
  let main_v27 : IVec S_ 1 := (fun x v => Host.reduce IntOp.andi x v reducesTo_S64x1024_S_d0_1 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x1024 .f32) (main_arg1 : FVec F S4096x512 .f32) (main_arg2 : FVec F S4096x64 .f32) (main_arg3 : FVec F S64x1024 .f32) (main_arg4 : FVec F S512x1024 .f32) (main_arg5 : FVec F S64x1024 .f32) (main_arg6 : FVec F S512x1024 .f32) (main_arg7 : FVec F S64x1024 .f32) (main_arg8 : FVec F S512x1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x1024 : Shape := ⟨2, ![4096, 1024]⟩
abbrev S4096x512 : Shape := ⟨2, ![4096, 512]⟩
abbrev S4096x64 : Shape := ⟨2, ![4096, 64]⟩
abbrev S64x1024 : Shape := ⟨2, ![64, 1024]⟩
abbrev S512x1024 : Shape := ⟨2, ![512, 1024]⟩
abbrev S1024x1024 : Shape := ⟨2, ![1024, 1024]⟩
abbrev S1024 : Shape := ⟨1, ![1024]⟩
abbrev S64x3072 : Shape := ⟨2, ![64, 3072]⟩
abbrev S512x3072 : Shape := ⟨2, ![512, 3072]⟩
abbrev S1024x3072 : Shape := ⟨2, ![1024, 3072]⟩
abbrev S3072 : Shape := ⟨1, ![3072]⟩
abbrev S1x3072 : Shape := ⟨2, ![1, 3072]⟩
abbrev S128x1024 : Shape := ⟨2, ![128, 1024]⟩
abbrev S128x512 : Shape := ⟨2, ![128, 512]⟩
abbrev S128x64 : Shape := ⟨2, ![128, 64]⟩
abbrev S128x3072 : Shape := ⟨2, ![128, 3072]⟩

abbrev nBuf : Space → Nat
  | .hbm => 24
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x64, .f32⟩
  | .hbm, ⟨3, _⟩ => ⟨S64x1024, .f32⟩
  | .hbm, ⟨4, _⟩ => ⟨S512x1024, .f32⟩
  | .hbm, ⟨5, _⟩ => ⟨S64x1024, .f32⟩
  | .hbm, ⟨6, _⟩ => ⟨S512x1024, .f32⟩
  | .hbm, ⟨7, _⟩ => ⟨S64x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S64x3072, .f32⟩
  | .hbm, ⟨16, _⟩ => ⟨S64x3072, .bf16⟩
  | .hbm, ⟨17, _⟩ => ⟨S512x3072, .f32⟩
  | .hbm, ⟨18, _⟩ => ⟨S512x3072, .bf16⟩
  | .hbm, ⟨19, _⟩ => ⟨S1024x3072, .f32⟩
  | .hbm, ⟨20, _⟩ => ⟨S1024x3072, .bf16⟩
  | .hbm, ⟨21, _⟩ => ⟨S3072, .f32⟩
  | .hbm, ⟨22, _⟩ => ⟨S1x3072, .f32⟩
  | .hbm, ⟨23, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x512, .f32⟩
  | .local _ .vmem, ⟨3, _⟩ => ⟨S128x512, .f32⟩
  | .local _ .vmem, ⟨4, _⟩ => ⟨S128x64, .f32⟩
  | .local _ .vmem, ⟨5, _⟩ => ⟨S128x64, .f32⟩
  | .local _ .vmem, ⟨6, _⟩ => ⟨S64x3072, .bf16⟩
  | .local _ .vmem, ⟨7, _⟩ => ⟨S512x3072, .bf16⟩
  | .local _ .vmem, ⟨8, _⟩ => ⟨S1024x3072, .bf16⟩
  | .local _ .vmem, ⟨9, _⟩ => ⟨S1x3072, .f32⟩
  | .local _ .vmem, ⟨10, _⟩ => ⟨S128x1024, .f32⟩
  | .local _ .vmem, ⟨11, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S64x1024_S64x1024_S64x1024_S64x3072_d1 : Shape.Concatenates [S64x1024, S64x1024, S64x1024] S64x3072 1
  bitsLt_bf16_f32 : FTy.bits .bf16 < FTy.bits .f32
  concatenates_S512x1024_S512x1024_S512x1024_S512x3072_d1 : Shape.Concatenates [S512x1024, S512x1024, S512x1024] S512x3072 1
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  shapeCasts_S3072_S1x3072 : S3072.ShapeCasts S1x3072
  inb_S128x1024_S128x1024_0_0 : ∀ a, (![0, 0] : Fin 2 → Nat) a + S128x1024.size a ≤ S128x1024.size a
  h_S128x1024 : 0 < S128x1024.numel
  inb_S128x512_S128x512_0_0 : ∀ a, (![0, 0] : Fin 2 → Nat) a + S128x512.size a ≤ S128x512.size a
  h_S128x512 : 0 < S128x512.numel
  inb_S128x64_S128x64_0_0 : ∀ a, (![0, 0] : Fin 2 → Nat) a + S128x64.size a ≤ S128x64.size a
  h_S128x64 : 0 < S128x64.numel
  inb_S64x3072_S64x3072_0_0 : ∀ a, (![0, 0] : Fin 2 → Nat) a + S64x3072.size a ≤ S64x3072.size a
  h_S64x3072 : 0 < S64x3072.numel
  shapeCasts_S64x3072_S64x3072 : S64x3072.ShapeCasts S64x3072
  inb_S512x3072_S512x3072_0_0 : ∀ a, (![0, 0] : Fin 2 → Nat) a + S512x3072.size a ≤ S512x3072.size a
  h_S512x3072 : 0 < S512x3072.numel
  shapeCasts_S512x3072_S512x3072 : S512x3072.ShapeCasts S512x3072
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S128x3072 : S1x3072.Broadcasts S128x3072
  slices_S128x3072_o0_0_S128x1024 : S128x3072.Slices ![0, 0] S128x1024
  slices_S128x3072_o0_1024_S128x1024 : S128x3072.Slices ![0, 1024] S128x1024
  slices_S128x3072_o0_2048_S128x1024 : S128x3072.Slices ![0, 2048] S128x1024
  dot_S128x64_S64x3072_S128x3072_1_0_0_1_n_n_wf : DotDims.WF S128x64 S64x3072 S128x3072 [1] [0] [0] [1] [] []
  dot_S128x512_S512x3072_S128x3072_1_0_0_1_n_n_wf : DotDims.WF S128x512 S512x3072 S128x3072 [1] [0] [0] [1] [] []
  dot_S128x1024_S1024x3072_S128x3072_1_0_0_1_n_n_wf : DotDims.WF S128x1024 S1024x3072 S128x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S4096x512.size a
  hwx0_1 : ∀ i : grid0.Coords, EltTy.bits .f32 = 32 ∨ (Rect.block (s := S4096x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S4096x64.size a
  hwx0_2 : ∀ i : grid0.Coords, EltTy.bits .f32 = 32 ∨ (Rect.block (s := S4096x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x3072.size a ≤ S64x3072.size a
  hwx0_3 : ∀ i : grid0.Coords, EltTy.bits .bf16 = 32 ∨ (Rect.block (s := S64x3072) S64x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x3072.size a ≤ S512x3072.size a
  hwx0_4 : ∀ i : grid0.Coords, EltTy.bits .bf16 = 32 ∨ (Rect.block (s := S512x3072) S512x3072.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x3072.size a ≤ S1024x3072.size a
  hwx0_5 : ∀ i : grid0.Coords, EltTy.bits .bf16 = 32 ∨ (Rect.block (s := S1024x3072) S1024x3072.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3072.size a ≤ S1x3072.size a
  hwx0_6 : ∀ i : grid0.Coords, EltTy.bits .f32 = 32 ∨ (Rect.block (s := S1x3072) S1x3072.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S4096x1024.size a
  hwx0_7 : ∀ i : grid0.Coords, EltTy.bits .f32 = 32 ∨ (Rect.block (s := S4096x1024) S128x1024.size (cc0_transform_7 i) (hinb0_7 i)).WholeWords (EltTy.packing .f32)

variable [Facts₀]

def dot_S128x64_S64x3072_S128x3072_1_0_0_1_n_n : DotDims S128x64 S64x3072 S128x3072 where
  lhsContracting := [1]
  rhsContracting := [0]
  lhsNonContracting := [0]
  rhsNonContracting := [1]
  lhsBatch := []
  rhsBatch := []
  wf := dot_S128x64_S64x3072_S128x3072_1_0_0_1_n_n_wf
def dot_S128x512_S512x3072_S128x3072_1_0_0_1_n_n : DotDims S128x512 S512x3072 S128x3072 where
  lhsContracting := [1]
  rhsContracting := [0]
  lhsNonContracting := [0]
  rhsNonContracting := [1]
  lhsBatch := []
  rhsBatch := []
  wf := dot_S128x512_S512x3072_S128x3072_1_0_0_1_n_n_wf
def dot_S128x1024_S1024x3072_S128x3072_1_0_0_1_n_n : DotDims S128x1024 S1024x3072 S128x3072 where
  lhsContracting := [1]
  rhsContracting := [0]
  lhsNonContracting := [0]
  rhsNonContracting := [1]
  lhsBatch := []
  rhsBatch := []
  wf := dot_S128x1024_S1024x3072_S128x3072_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x3072.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x512 : Shape := ⟨2, ![4096, 512]⟩
abbrev S4096x64 : Shape := ⟨2, ![4096, 64]⟩
abbrev S64x1024 : Shape := ⟨2, ![64, 1024]⟩
abbrev S512x1024 : Shape := ⟨2, ![512, 1024]⟩
abbrev S1024x1024 : Shape := ⟨2, ![1024, 1024]⟩
abbrev S1024 : Shape := ⟨1, ![1024]⟩
abbrev S64x3072 : Shape := ⟨2, ![64, 3072]⟩
abbrev S512x3072 : Shape := ⟨2, ![512, 3072]⟩
abbrev S1024x3072 : Shape := ⟨2, ![1024, 3072]⟩
abbrev S3072 : Shape := ⟨1, ![3072]⟩
abbrev S4096x3072 : Shape := ⟨2, ![4096, 3072]⟩
abbrev S1x3072 : Shape := ⟨2, ![1, 3072]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x64, .f32⟩
  | .hbm, ⟨3, _⟩ => ⟨S64x1024, .f32⟩
  | .hbm, ⟨4, _⟩ => ⟨S512x1024, .f32⟩
  | .hbm, ⟨5, _⟩ => ⟨S64x1024, .f32⟩
  | .hbm, ⟨6, _⟩ => ⟨S512x1024, .f32⟩
  | .hbm, ⟨7, _⟩ => ⟨S64x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S64x3072, .f32⟩
  | .hbm, ⟨16, _⟩ => ⟨S512x3072, .f32⟩
  | .hbm, ⟨17, _⟩ => ⟨S1024x3072, .f32⟩
  | .hbm, ⟨18, _⟩ => ⟨S3072, .f32⟩
  | .hbm, ⟨19, _⟩ => ⟨S4096x3072, .f32⟩
  | .hbm, ⟨20, _⟩ => ⟨S4096x3072, .f32⟩
  | .hbm, ⟨21, _⟩ => ⟨S4096x3072, .f32⟩
  | .hbm, ⟨22, _⟩ => ⟨S1x3072, .f32⟩
  | .hbm, ⟨23, _⟩ => ⟨S4096x3072, .f32⟩
  | .hbm, ⟨24, _⟩ => ⟨S4096x3072, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst : Ref sig .tc := ⟨.hbm, 38, rfl⟩
abbrev main_v23 : Ref sig .tc := ⟨.hbm, 39, rfl⟩
abbrev main_v24 : Ref sig .tc := ⟨.hbm, 40, rfl⟩
abbrev main_cst_0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_1 : Ref sig .tc := ⟨.hbm, 48, rfl⟩
abbrev main_v31 : Ref sig .tc := ⟨.hbm, 49, rfl⟩
abbrev main_v32 : Ref sig .tc := ⟨.hbm, 50, rfl⟩
abbrev main_cst_2 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_3 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]

class Facts₀ : Prop where
  concatenates_S64x1024_S64x1024_S64x1024_S64x3072_d1 : Shape.Concatenates [S64x1024, S64x1024, S64x1024] S64x3072 1
  concatenates_S512x1024_S512x1024_S512x1024_S512x3072_d1 : Shape.Concatenates [S512x1024, S512x1024, S512x1024] S512x3072 1
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  bcast_S3072_S1x3072_1 : S3072.BroadcastsInDim S1x3072 (![1] : Fin 1 → Fin S1x3072.rank)
  bcast_S1x3072_S4096x3072_0_1 : S1x3072.BroadcastsInDim S4096x3072 (![0, 1] : Fin 2 → Fin S4096x3072.rank)
  slices_S4096x3072_S4096x1024_0_0 : S4096x3072.Slices ![0, 0] S4096x1024
  slices_S4096x3072_S4096x1024_0_1024 : S4096x3072.Slices ![0, 1024] S4096x1024
  slices_S4096x3072_S4096x1024_0_2048 : S4096x3072.Slices ![0, 2048] S4096x1024
  bcast_S_S4096x1024 : S_.BroadcastsInDim S4096x1024 (![] : Fin 0 → Fin S4096x1024.rank)
  dot_S4096x64_S64x3072_S4096x3072_1_0_0_1_n_n_wf : DotDims.WF S4096x64 S64x3072 S4096x3072 [1] [0] [0] [1] [] []
  dot_S4096x512_S512x3072_S4096x3072_1_0_0_1_n_n_wf : DotDims.WF S4096x512 S512x3072 S4096x3072 [1] [0] [0] [1] [] []
  dot_S4096x1024_S1024x3072_S4096x3072_1_0_0_1_n_n_wf : DotDims.WF S4096x1024 S1024x3072 S4096x3072 [1] [0] [0] [1] [] []

variable [Facts₀]

def dot_S4096x64_S64x3072_S4096x3072_1_0_0_1_n_n : DotDims S4096x64 S64x3072 S4096x3072 where
  lhsContracting := [1]
  rhsContracting := [0]
  lhsNonContracting := [0]
  rhsNonContracting := [1]
  lhsBatch := []
  rhsBatch := []
  wf := dot_S4096x64_S64x3072_S4096x3072_1_0_0_1_n_n_wf
def dot_S4096x512_S512x3072_S4096x3072_1_0_0_1_n_n : DotDims S4096x512 S512x3072 S4096x3072 where
  lhsContracting := [1]
  rhsContracting := [0]
  lhsNonContracting := [0]
  rhsNonContracting := [1]
  lhsBatch := []
  rhsBatch := []
  wf := dot_S4096x512_S512x3072_S4096x3072_1_0_0_1_n_n_wf
def dot_S4096x1024_S1024x3072_S4096x3072_1_0_0_1_n_n : DotDims S4096x1024 S1024x3072 S4096x3072 where
  lhsContracting := [1]
  rhsContracting := [0]
  lhsNonContracting := [0]
  rhsNonContracting := [1]
  lhsBatch := []
  rhsBatch := []
  wf := dot_S4096x1024_S1024x3072_S4096x3072_1_0_0_1_n_n_wf

class Facts : Prop extends Facts₀ where

variable [Facts]
-- ==== Proof.KEntry.lean ====
/-
  What the region of `Kernel` finds when it is entered. @main is eight host operations — three concatenations of
  weight matrices along their columns, each then narrowed to bf16, and the concatenation of the three bias vectors
  reshaped to one row — followed by the one pipelined call. None of those operations writes an argument array, so
  each argument is found as launched; a window's block at a grid point is its array read through the block's view.
  From a run that ends with every window array at what the pipeline wrote back and every other buffer as at the
  region's entry, the arguments end unchanged: the three staged inputs because an input window is never written
  back, the twelve weight and bias arrays because the region does not touch them.
-/
import proofs.«113609_j37555194036855_1_alg».proof.Proof.Gen.Kernel.Launch
import proofs.«113609_j37555194036855_1_alg».proof.Proof.Gen.Kernel.Points
import Idealize.ShloMosaic.Lib.Pipeline.FrameBody

set_option maxRecDepth 16384

noncomputable section

namespace Cert.Kernel.Region

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- Core `c`'s buffers when the region is entered: the launch memory after the eight host operations. -/
abbrev V (c : Dev nD) (b : Ref sig .tc) : Buf (Elt F) ((c : Thread nD τ).loc b) :=
  StableHlo.after hostOps0 (fun b => m (c, b)) b

/-- None of the host operations leaves a buffer at undetermined contents. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetched it or the
    block index has not moved since an earlier fetch. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point fetched it or the
    block index has not moved since an earlier fetch. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point fetched it or the
    block index has not moved since an earlier fetch. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the point fetched it or the
    block index has not moved since an earlier fetch. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the point fetched it or the
    block index has not moved since an earlier fetch. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the point fetched it or the
    block index has not moved since an earlier fetch. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether the point fetched it or the
    block index has not moved since an earlier fetch. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run whose final state has every window array at what the pipeline computes from the proof data and every
    other unscoped buffer at its region-entry contents, every argument array ends at its launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

end Cert.Kernel.Region

end
-- ==== Proof.KBody.lean ====
/-
  What one call of the kernel body does to its eight buffers. The body reads the seven input blocks whole — a block of
  hidden-state rows, of spike rows and of external-input rows, the three joined weight matrices and the joined bias
  row —, computes the new hidden state of those rows (three matrix products, two logistic gates and a tanh candidate,
  then the convex mix of the candidate with the old state), reads the output buffer once without using what it read,
  and stores the result over the whole output buffer. So the inputs' buffers end as they were, and the output's buffer
  ends at that one stored value, whatever it held before.
-/
import proofs.«113609_j37555194036855_1_alg».proof.Proof.Gen.Kernel.Launch
import proofs.«113609_j37555194036855_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole -/

abbrev r0 : Rect S128x1024 := Rect.unit (s := S128x1024) ![0, 0] S128x1024.size inb_S128x1024_S128x1024_0_0
abbrev r1 : Rect S128x512 := Rect.unit (s := S128x512) ![0, 0] S128x512.size inb_S128x512_S128x512_0_0
abbrev r2 : Rect S128x64 := Rect.unit (s := S128x64) ![0, 0] S128x64.size inb_S128x64_S128x64_0_0
abbrev r3 : Rect S64x3072 := Rect.unit (s := S64x3072) ![0, 0] S64x3072.size inb_S64x3072_S64x3072_0_0
abbrev r4 : Rect S512x3072 := Rect.unit (s := S512x3072) ![0, 0] S512x3072.size inb_S512x3072_S512x3072_0_0
abbrev r5 : Rect S1024x3072 := Rect.unit (s := S1024x3072) ![0, 0] S1024x3072.size inb_S1024x3072_S1024x3072_0_0
abbrev r6 : Rect S1x3072 := Rect.unit (s := S1x3072) ![0, 0] S1x3072.size inb_S1x3072_S1x3072_0_0

/-! ## What the body leaves in the output buffer -/

/-- The new hidden state of a block of rows, from the seven input blocks: the mix `(1 - z) * n + z * h` of the candidate
    `n` with the old state `h`, the update gate `z` and the candidate being the skeleton's two named values. -/
def newState (x0 : Vec F S128x1024 .f32) (x1 : Vec F S128x512 .f32) (x2 : Vec F S128x64 .f32) (x3 : Vec F S64x3072 .bf16) (x4 : Vec F S512x3072 .bf16) (x5 : Vec F S1024x3072 .bf16) (x6 : Vec F S1x3072 .f32) : FVec F S128x1024 .f32 :=
  k0_pay1 (View.ld x0 r0) (k0_pay5 (View.ld x0 r0) (View.ld x1 r1) (View.ld x2 r2) (View.ld x3 r3) (View.ld x4 r4) (View.ld x5 r5) (View.ld x6 r6)) (k0_pay6 (View.ld x0 r0) (View.ld x1 r1) (View.ld x2 r2) (View.ld x3 r3) (View.ld x4 r4) (View.ld x5 r5) (View.ld x6 r6))

/-- The output buffer after the body: its one store, over the whole buffer. -/
def blockOut (x0 : Vec F S128x1024 .f32) (x1 : Vec F S128x512 .f32) (x2 : Vec F S128x64 .f32) (x3 : Vec F S64x3072 .bf16) (x4 : Vec F S512x3072 .bf16) (x5 : Vec F S1024x3072 .bf16) (x6 : Vec F S1x3072 .f32) : Vec F S128x1024 .f32 :=
  View.canon [⟨r0, newState x0 x1 x2 x3 x4 x5 x6⟩]

/-- The one store covers the buffer. -/
theorem cover_out (p0 : Vec F S128x1024 .f32) (y : S128x1024.Idx) :
    ∃ pc ∈ ([⟨r0, p0⟩] : List (View.Piece (Elt F) S128x1024 .f32)), y ∈ pc.1.set :=
  View.cover_of_tiled [⟨r0, p0⟩] S128x1024.size (by rfl) y

/-! ## The body's triple -/

set_option maxHeartbeats 1000000 in
/-- On whole buffers, the inputs' at contents `x0 … x6` and the output's at anything, the body runs to the continuation
    with the inputs' buffers as they were and the output's at `blockOut` of the inputs. -/
theorem sound_kernel (c : Dev nD) (E : Set ℕ) (i : grid0.Coords) (arg1 : Memref sig .tc .vmem S128x1024 .f32) (harg1 : arg1.IsWhole) (arg2 : Memref sig .tc .vmem S128x512 .f32) (harg2 : arg2.IsWhole) (arg3 : Memref sig .tc .vmem S128x64 .f32) (harg3 : arg3.IsWhole) (arg4 : Memref sig .tc .vmem S64x3072 .bf16) (harg4 : arg4.IsWhole) (arg5 : Memref sig .tc .vmem S512x3072 .bf16) (harg5 : arg5.IsWhole) (arg6 : Memref sig .tc .vmem S1024x3072 .bf16) (harg6 : arg6.IsWhole) (arg7 : Memref sig .tc .vmem S1x3072 .f32) (harg7 : arg7.IsWhole) (arg8 : Memref sig .tc .vmem S128x1024 .f32) (harg8 : arg8.IsWhole)
    (x0 : Vec F S128x1024 .f32) (x1 : Vec F S128x512 .f32) (x2 : Vec F S128x64 .f32) (x3 : Vec F S64x3072 .bf16) (x4 : Vec F S512x3072 .bf16) (x5 : Vec F S1024x3072 .bf16) (x6 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (blockOut x0 x1 x2 x3 x4 x5 x6)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8) K := by
  simp only [cc0__gru_kernel_eq_skeleton]; unfold cc0__gru_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _)

end Cert.Kernel.Region

end
-- ==== Proof.KRun.lean ====
/-
  The pipelined call as a whole, and the frame. The proof data say what each window's staging buffer holds after the
  body at each grid point: an input's its block of the array, the output's the body's one stored value over the input
  blocks of that point. The body obligation at a point is then the body's triple at those blocks, the pipeline's
  invariant passing through untouched; the library's frame run carries it over the thirty-two points, and the
  arguments end unchanged.
-/
import proofs.«113609_j37555194036855_1_alg».proof.Proof.KEntry
import proofs.«113609_j37555194036855_1_alg».proof.Proof.KBody

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- What the output's buffer holds after the body at point `t`: the body's stored value over that point's input blocks. -/
def outAt (c : Dev nD) (t : Fin cfg0.N) : Vec F S128x1024 .f32 :=
  blockOut (iblk m c 0 t) (iblk m c 1 t) (iblk m c 2 t) (iblk m c 3 t) (iblk m c 4 t) (iblk m c 5 t) (iblk m c 6 t)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault, with every window array at what the pipeline
    wrote back and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its fifteen arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Region

end
-- ==== Proof.KIEntry.lean ====
/-
  What the region of `KernelIdeal` finds when it is entered. @main is eight host operations — three concatenations of
  weight matrices along their columns, each then narrowed to bf16, and the concatenation of the three bias vectors
  reshaped to one row — followed by the one pipelined call. None of those operations writes an argument array, so
  each argument is found as launched; a window's block at a grid point is its array read through the block's view.
  From a run that ends with every window array at what the pipeline wrote back and every other buffer as at the
  region's entry, the arguments end unchanged: the three staged inputs because an input window is never written
  back, the twelve weight and bias arrays because the region does not touch them.
-/
import proofs.«113609_j37555194036855_1_alg».proof.Proof.Gen.KernelIdeal.Launch
import proofs.«113609_j37555194036855_1_alg».proof.Proof.Gen.KernelIdeal.Points
import Idealize.ShloMosaic.Lib.Pipeline.FrameBody

set_option maxRecDepth 16384

noncomputable section

namespace Cert.KernelIdeal.Region

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- Core `c`'s buffers when the region is entered: the launch memory after the eight host operations. -/
abbrev V (c : Dev nD) (b : Ref sig .tc) : Buf (Elt F) ((c : Thread nD τ).loc b) :=
  StableHlo.after hostOps0 (fun b => m (c, b)) b

/-- None of the host operations leaves a buffer at undetermined contents. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetched it or the
    block index has not moved since an earlier fetch. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point fetched it or the
    block index has not moved since an earlier fetch. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point fetched it or the
    block index has not moved since an earlier fetch. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the point fetched it or the
    block index has not moved since an earlier fetch. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the point fetched it or the
    block index has not moved since an earlier fetch. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the point fetched it or the
    block index has not moved since an earlier fetch. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether the point fetched it or the
    block index has not moved since an earlier fetch. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run whose final state has every window array at what the pipeline computes from the proof data and every
    other unscoped buffer at its region-entry contents, every argument array ends at its launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

end Cert.KernelIdeal.Region

end
-- ==== Proof.KIBody.lean ====
/-
  What one call of the kernel body does to its eight buffers. The body reads the seven input blocks whole — a block of
  hidden-state rows, of spike rows and of external-input rows, the three joined weight matrices and the joined bias
  row —, computes the new hidden state of those rows (three matrix products, two logistic gates and a tanh candidate,
  then the convex mix of the candidate with the old state), reads the output buffer once without using what it read,
  and stores the result over the whole output buffer. So the inputs' buffers end as they were, and the output's buffer
  ends at that one stored value, whatever it held before.
-/
import proofs.«113609_j37555194036855_1_alg».proof.Proof.Gen.KernelIdeal.Launch
import proofs.«113609_j37555194036855_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole -/

abbrev r0 : Rect S128x1024 := Rect.unit (s := S128x1024) ![0, 0] S128x1024.size inb_S128x1024_S128x1024_0_0
abbrev r1 : Rect S128x512 := Rect.unit (s := S128x512) ![0, 0] S128x512.size inb_S128x512_S128x512_0_0
abbrev r2 : Rect S128x64 := Rect.unit (s := S128x64) ![0, 0] S128x64.size inb_S128x64_S128x64_0_0
abbrev r3 : Rect S64x3072 := Rect.unit (s := S64x3072) ![0, 0] S64x3072.size inb_S64x3072_S64x3072_0_0
abbrev r4 : Rect S512x3072 := Rect.unit (s := S512x3072) ![0, 0] S512x3072.size inb_S512x3072_S512x3072_0_0
abbrev r5 : Rect S1024x3072 := Rect.unit (s := S1024x3072) ![0, 0] S1024x3072.size inb_S1024x3072_S1024x3072_0_0
abbrev r6 : Rect S1x3072 := Rect.unit (s := S1x3072) ![0, 0] S1x3072.size inb_S1x3072_S1x3072_0_0

/-! ## What the body leaves in the output buffer -/

/-- The new hidden state of a block of rows, from the seven input blocks: the mix `(1 - z) * n + z * h` of the candidate
    `n` with the old state `h`, the update gate `z` and the candidate being the skeleton's two named values. -/
def newState (x0 : Vec F S128x1024 .f32) (x1 : Vec F S128x512 .f32) (x2 : Vec F S128x64 .f32) (x3 : Vec F S64x3072 .bf16) (x4 : Vec F S512x3072 .bf16) (x5 : Vec F S1024x3072 .bf16) (x6 : Vec F S1x3072 .f32) : FVec F S128x1024 .f32 :=
  k0_pay1 (View.ld x0 r0) (k0_pay5 (View.ld x0 r0) (View.ld x1 r1) (View.ld x2 r2) (View.ld x3 r3) (View.ld x4 r4) (View.ld x5 r5) (View.ld x6 r6)) (k0_pay6 (View.ld x0 r0) (View.ld x1 r1) (View.ld x2 r2) (View.ld x3 r3) (View.ld x4 r4) (View.ld x5 r5) (View.ld x6 r6))

/-- The output buffer after the body: its one store, over the whole buffer. -/
def blockOut (x0 : Vec F S128x1024 .f32) (x1 : Vec F S128x512 .f32) (x2 : Vec F S128x64 .f32) (x3 : Vec F S64x3072 .bf16) (x4 : Vec F S512x3072 .bf16) (x5 : Vec F S1024x3072 .bf16) (x6 : Vec F S1x3072 .f32) : Vec F S128x1024 .f32 :=
  View.canon [⟨r0, newState x0 x1 x2 x3 x4 x5 x6⟩]

/-- The one store covers the buffer. -/
theorem cover_out (p0 : Vec F S128x1024 .f32) (y : S128x1024.Idx) :
    ∃ pc ∈ ([⟨r0, p0⟩] : List (View.Piece (Elt F) S128x1024 .f32)), y ∈ pc.1.set :=
  View.cover_of_tiled [⟨r0, p0⟩] S128x1024.size (by rfl) y

/-! ## The body's triple -/

set_option maxHeartbeats 1000000 in
/-- On whole buffers, the inputs' at contents `x0 … x6` and the output's at anything, the body runs to the continuation
    with the inputs' buffers as they were and the output's at `blockOut` of the inputs. -/
theorem sound_kernel (c : Dev nD) (E : Set ℕ) (i : grid0.Coords) (arg1 : Memref sig .tc .vmem S128x1024 .f32) (harg1 : arg1.IsWhole) (arg2 : Memref sig .tc .vmem S128x512 .f32) (harg2 : arg2.IsWhole) (arg3 : Memref sig .tc .vmem S128x64 .f32) (harg3 : arg3.IsWhole) (arg4 : Memref sig .tc .vmem S64x3072 .bf16) (harg4 : arg4.IsWhole) (arg5 : Memref sig .tc .vmem S512x3072 .bf16) (harg5 : arg5.IsWhole) (arg6 : Memref sig .tc .vmem S1024x3072 .bf16) (harg6 : arg6.IsWhole) (arg7 : Memref sig .tc .vmem S1x3072 .f32) (harg7 : arg7.IsWhole) (arg8 : Memref sig .tc .vmem S128x1024 .f32) (harg8 : arg8.IsWhole)
    (x0 : Vec F S128x1024 .f32) (x1 : Vec F S128x512 .f32) (x2 : Vec F S128x64 .f32) (x3 : Vec F S64x3072 .bf16) (x4 : Vec F S512x3072 .bf16) (x5 : Vec F S1024x3072 .bf16) (x6 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (blockOut x0 x1 x2 x3 x4 x5 x6)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8) K := by
  simp only [cc0__gru_kernel_eq_skeleton]; unfold cc0__gru_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _)

end Cert.KernelIdeal.Region

end
-- ==== Proof.KIRun.lean ====
/-
  The pipelined call as a whole, and the frame. The proof data say what each window's staging buffer holds after the
  body at each grid point: an input's its block of the array, the output's the body's one stored value over the input
  blocks of that point. The body obligation at a point is then the body's triple at those blocks, the pipeline's
  invariant passing through untouched; the library's frame run carries it over the thirty-two points, and the
  arguments end unchanged.
-/
import proofs.«113609_j37555194036855_1_alg».proof.Proof.KIEntry
import proofs.«113609_j37555194036855_1_alg».proof.Proof.KIBody

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- What the output's buffer holds after the body at point `t`: the body's stored value over that point's input blocks. -/
def outAt (c : Dev nD) (t : Fin cfg0.N) : Vec F S128x1024 .f32 :=
  blockOut (iblk m c 0 t) (iblk m c 1 t) (iblk m c 2 t) (iblk m c 3 t) (iblk m c 4 t) (iblk m c 5 t) (iblk m c 6 t)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault, with every window array at what the pipeline
    wrote back and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its fifteen arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Region

end
-- ==== Proof.Spec.lean ====
/-
  The GRU update both programs compute, at one entry. For a batch row with hidden state `h`, spike inputs `x` and
  external inputs `c`, three weight matrices with 3072 columns each — the reset, update and candidate gates' columns
  side by side, 1024 apiece — and one bias row of the same layout added to the hidden state's projection:

    r = logistic (c·Wc + x·Wx + (h·Wh + b))   on the reset columns,
    z = logistic (c·Wc + x·Wx + (h·Wh + b))   on the update columns,
    n = tanh     (c·Wc + x·Wx + r * (h·Wh + b)) on the candidate columns,
    new h = (1 - z) * n + z * h.

  Everything is over the extended reals, each projection the plain sum over the contracted position, the sums grouped
  as written. Operands are plain functions of their coordinates so that a block of rows and the whole batch read the
  same definition.
-/
import Idealize.ShloMosaic.Lib.ValueIdx
import Idealize.ShloMosaic.PureOps.Ideal
import Mathlib.Algebra.BigOperators.Fin

noncomputable section

namespace Cert.GruSpec

open Idealize.ShloMosaic Idealize.ShloMosaic.ValueIdx

/-- The constant 1.0, as both programs spell it. -/
abbrev one : EReal := Ideal.ofBits .f32 0x3F800000#32

/-- Gate column `q` of the reset gate, -/
abbrev colR (q : Fin 1024) : Fin 3072 := ⟨q.val, by have := q.isLt; omega⟩
/-- of the update gate, -/
abbrev colZ (q : Fin 1024) : Fin 3072 := ⟨1024 + q.val, by have := q.isLt; omega⟩
/-- and of the candidate, among the 3072 joined columns. -/
abbrev colN (q : Fin 1024) : Fin 3072 := ⟨2048 + q.val, by have := q.isLt; omega⟩

/-- One row against one joined column: the sum over the contracted position. -/
def proj {K : ℕ} (row : Fin K → EReal) (W : Fin K → Fin 3072 → EReal) (j : Fin 3072) : EReal :=
  ∑ k : Fin K, row k * W k j

/-- The hidden state's projection with its bias. -/
def hid (h : Fin 1024 → EReal) (Wh : Fin 1024 → Fin 3072 → EReal) (b : Fin 3072 → EReal) (j : Fin 3072) : EReal :=
  proj h Wh j + b j

variable (h : Fin 1024 → EReal) (x : Fin 512 → EReal) (c : Fin 64 → EReal)
  (Wc : Fin 64 → Fin 3072 → EReal) (Wx : Fin 512 → Fin 3072 → EReal) (Wh : Fin 1024 → Fin 3072 → EReal) (b : Fin 3072 → EReal)

/-- The reset gate at column `q`. -/
def gateR (q : Fin 1024) : EReal :=
  Ideal.logistic (proj c Wc (colR q) + proj x Wx (colR q) + hid h Wh b (colR q))

/-- The update gate at column `q`. -/
def gateZ (q : Fin 1024) : EReal :=
  Ideal.logistic (proj c Wc (colZ q) + proj x Wx (colZ q) + hid h Wh b (colZ q))

/-- The candidate state at column `q`. -/
def cand (q : Fin 1024) : EReal :=
  Ideal.tanh (proj c Wc (colN q) + proj x Wx (colN q) + gateR h x c Wc Wx Wh b q * hid h Wh b (colN q))

/-- The new hidden state at column `q`. -/
def cell (q : Fin 1024) : EReal :=
  (one - gateZ h x c Wc Wx Wh b q) * cand h x c Wc Wx Wh b q + gateZ h x c Wc Wx Wh b q * h q

end Cert.GruSpec

namespace Cert.GruSpec

open Idealize.ShloMosaic Idealize.ShloMosaic.ValueIdx

/-- The whole result array: entry `(row, q)` is `cell` of that row of the three batch arrays, against the joined weights
    and the joined bias. -/
def G (H : (⟨2, ![4096, 1024]⟩ : Shape).Idx → EReal) (X : (⟨2, ![4096, 512]⟩ : Shape).Idx → EReal) (C : (⟨2, ![4096, 64]⟩ : Shape).Idx → EReal)
    (Wc : (⟨2, ![64, 3072]⟩ : Shape).Idx → EReal) (Wx : (⟨2, ![512, 3072]⟩ : Shape).Idx → EReal) (Wh : (⟨2, ![1024, 3072]⟩ : Shape).Idx → EReal)
    (b : (⟨1, ![3072]⟩ : Shape).Idx → EReal) : (⟨2, ![4096, 1024]⟩ : Shape).Idx → EReal :=
  fun i => cell (fun k => H (ix2 (i 0) k)) (fun k => X (ix2 (i 0) k)) (fun k => C (ix2 (i 0) k))
    (fun k j => Wc (ix2 k j)) (fun k j => Wx (ix2 k j)) (fun k j => Wh (ix2 k j)) (fun j => b (ix1 j)) (i 1)

/-- At explicit coordinates. -/
theorem G_ix2 (H : (⟨2, ![4096, 1024]⟩ : Shape).Idx → EReal) (X : (⟨2, ![4096, 512]⟩ : Shape).Idx → EReal) (C : (⟨2, ![4096, 64]⟩ : Shape).Idx → EReal)
    (Wc : (⟨2, ![64, 3072]⟩ : Shape).Idx → EReal) (Wx : (⟨2, ![512, 3072]⟩ : Shape).Idx → EReal) (Wh : (⟨2, ![1024, 3072]⟩ : Shape).Idx → EReal)
    (b : (⟨1, ![3072]⟩ : Shape).Idx → EReal) (r : Fin 4096) (q : Fin 1024) :
    G H X C Wc Wx Wh b (ix2 r q) = cell (fun k => H (ix2 r k)) (fun k => X (ix2 r k)) (fun k => C (ix2 r k))
      (fun k j => Wc (ix2 k j)) (fun k j => Wx (ix2 k j)) (fun k j => Wh (ix2 k j)) (fun j => b (ix1 j)) q := rfl

end Cert.GruSpec

end
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.KIPay.lean ====
/-
  The body's values at one entry of the block. With the input blocks read as extended reals (a change of float format
  is the identity there), each matrix product into the zero accumulator is the plain sum over the contracted position,
  a column slice at offset 0, 1024 or 2048 picks the reset, update or candidate gate's column, the bias row is read at
  its one row, and the pointwise operations act entry by entry. So the three projections are the specification's sums,
  the two gates its logistic terms, the candidate its tanh term, and the stored value its new hidden state, row `p` of
  the block against column `q`.
-/
import proofs.«113609_j37555194036855_1_alg».proof.Proof.KIBody
import proofs.«113609_j37555194036855_1_alg».proof.Proof.Spec
import proofs.«113609_j37555194036855_1_alg».proof.Proof.LibPlainDot
import Idealize.ShloMosaic.Lib.ValueIdx
import Idealize.ShloMosaic.Lib.Pipeline.Value
import Idealize.ShloMosaic.PureOps.Ideal.Laws

set_option maxRecDepth 16384

noncomputable section

namespace Cert.KernelIdeal.Region

open Cert.KernelIdeal Cert.KernelIdeal.Gen
open Idealize.ShloMosaic Idealize.ShloMosaic.ValueIdx
open Cert.GruSpec

/-- The whole-buffer rectangle starts at the origin. -/
theorem hz : (![0, 0] : Fin 2 → Nat) = fun _ => 0 := funext fun a => by fin_cases a <;> rfl

variable (x0 : Vec Ideal S128x1024 .f32) (x1 : Vec Ideal S128x512 .f32) (x2 : Vec Ideal S128x64 .f32) (x3 : Vec Ideal S64x3072 .bf16) (x4 : Vec Ideal S512x3072 .bf16) (x5 : Vec Ideal S1024x3072 .bf16) (x6 : Vec Ideal S1x3072 .f32)

/-- The external inputs' projection at row `p`, joined column `j`. -/
theorem pay2_apply (p : Fin 128) (j : Fin 3072) :
    k0_pay2 (F := Ideal) x2 x3 (ix2 p j) = proj (fun k => x2 (ix2 p k)) (fun k j => x3 (ix2 k j)) j := by
  unfold k0_pay2
  rw [shapeCast_self]
  exact PlainDot.matmul_zero_apply dot_S128x64_S64x3072_S128x3072_1_0_0_1_n_n rfl none _ _ p j

/-- The spike inputs' projection. -/
theorem pay3_apply (p : Fin 128) (j : Fin 3072) :
    k0_pay3 (F := Ideal) x1 x4 (ix2 p j) = proj (fun k => x1 (ix2 p k)) (fun k j => x4 (ix2 k j)) j := by
  unfold k0_pay3
  rw [shapeCast_self]
  exact PlainDot.matmul_zero_apply dot_S128x512_S512x3072_S128x3072_1_0_0_1_n_n rfl none _ _ p j

/-- The bias row, broadcast down the block's rows, at `(p, j)` is the row's entry `j`. -/
theorem bias_apply (p : Fin 128) (j : Fin 3072) :
    broadcastTo S128x3072 (shapeCast S1x3072 x6 shapeCasts_S1x3072_S1x3072) broadcasts_S1x3072_S128x3072 (ix2 p j) = x6 (ix2 0 j) := by
  rw [shapeCast_self]
  refine broadcastTo_apply x6 broadcasts_S1x3072_S128x3072 (ix2 p j) (ix2 0 j) fun a => ?_
  match a with
  | ⟨0, _⟩ => show 0 = if (1 : Nat) = 1 then 0 else _; rw [if_pos rfl]
  | ⟨1, _⟩ => show j.val = if (3072 : Nat) = 1 then 0 else j.val; rw [if_neg (by decide)]

/-- The hidden state's projection with its bias. -/
theorem pay4_apply (p : Fin 128) (j : Fin 3072) :
    k0_pay4 (F := Ideal) x0 x5 x6 (ix2 p j) = hid (fun k => x0 (ix2 p k)) (fun k j => x5 (ix2 k j)) (fun j => x6 (ix2 0 j)) j := by
  unfold k0_pay4
  show matmul (F := Ideal) dot_S128x1024_S1024x3072_S128x3072_1_0_0_1_n_n none (truncf .bf16 x0 bitsLt_bf16_f32)
        (shapeCast S1024x3072 x5 shapeCasts_S1024x3072_S1024x3072) (constant S128x3072 .f32 0x00000000#32) (ix2 p j)
      + broadcastTo S128x3072 (shapeCast S1x3072 x6 shapeCasts_S1x3072_S1x3072) broadcasts_S1x3072_S128x3072 (ix2 p j) = _
  rw [bias_apply, shapeCast_self]
  exact congrArg (· + x6 (ix2 0 j)) (PlainDot.matmul_zero_apply dot_S128x1024_S1024x3072_S128x3072_1_0_0_1_n_n rfl none _ _ p j)

/-- A column slice of a `[128, 3072]` value at offset `o`, read at `(p, q)`, is the value at `(p, o + q)`. -/
theorem slice_apply (o : Nat) (h : S128x3072.Slices ![0, o] S128x1024) (v : FVec Ideal S128x3072 .f32) (p : Fin 128) (q : Fin 1024)
    (j : Fin 3072) (hj : j.val = o + q.val) :
    extractStridedSlice S128x1024 ![0, o] v h (ix2 p q) = v (ix2 p j) := by
  refine extractStridedSlice_apply ![0, o] v h (ix2 p q) (ix2 p j) fun a => ?_
  match a with
  | ⟨0, _⟩ => show p.val = 0 + p.val; omega
  | ⟨1, _⟩ => show j.val = o + q.val; exact hj

/-- The update gate. -/
theorem pay5_apply (p : Fin 128) (q : Fin 1024) :
    k0_pay5 (F := Ideal) x0 x1 x2 x3 x4 x5 x6 (ix2 p q)
      = gateZ (fun k => x0 (ix2 p k)) (fun k => x1 (ix2 p k)) (fun k => x2 (ix2 p k)) (fun k j => x3 (ix2 k j)) (fun k j => x4 (ix2 k j)) (fun k j => x5 (ix2 k j)) (fun j => x6 (ix2 0 j)) q := by
  unfold k0_pay5 gateZ
  show Ideal.logistic (extractStridedSlice S128x1024 ![0, 1024] (k0_pay2 x2 x3) slices_S128x3072_o0_1024_S128x1024 (ix2 p q)
      + extractStridedSlice S128x1024 ![0, 1024] (k0_pay3 x1 x4) slices_S128x3072_o0_1024_S128x1024 (ix2 p q)
      + extractStridedSlice S128x1024 ![0, 1024] (k0_pay4 x0 x5 x6) slices_S128x3072_o0_1024_S128x1024 (ix2 p q)) = _
  rw [slice_apply 1024 _ _ p q (colZ q) rfl, slice_apply 1024 _ _ p q (colZ q) rfl, slice_apply 1024 _ _ p q (colZ q) rfl,
    pay2_apply, pay3_apply, pay4_apply]

/-- The reset gate, as the candidate reads it. -/
theorem gateR_apply (p : Fin 128) (q : Fin 1024) :
    Ideal.logistic (extractStridedSlice S128x1024 ![0, 0] (k0_pay2 (F := Ideal) x2 x3) slices_S128x3072_o0_0_S128x1024 (ix2 p q)
      + extractStridedSlice S128x1024 ![0, 0] (k0_pay3 (F := Ideal) x1 x4) slices_S128x3072_o0_0_S128x1024 (ix2 p q)
      + extractStridedSlice S128x1024 ![0, 0] (k0_pay4 (F := Ideal) x0 x5 x6) slices_S128x3072_o0_0_S128x1024 (ix2 p q))
      = gateR (fun k => x0 (ix2 p k)) (fun k => x1 (ix2 p k)) (fun k => x2 (ix2 p k)) (fun k j => x3 (ix2 k j)) (fun k j => x4 (ix2 k j)) (fun k j => x5 (ix2 k j)) (fun j => x6 (ix2 0 j)) q := by
  unfold gateR
  rw [slice_apply 0 _ _ p q (colR q) (by show q.val = 0 + q.val; omega), slice_apply 0 _ _ p q (colR q) (by show q.val = 0 + q.val; omega),
    slice_apply 0 _ _ p q (colR q) (by show q.val = 0 + q.val; omega), pay2_apply, pay3_apply, pay4_apply]

/-- The candidate weighted by `1 - z`. -/
theorem pay6_apply (p : Fin 128) (q : Fin 1024) :
    k0_pay6 (F := Ideal) x0 x1 x2 x3 x4 x5 x6 (ix2 p q)
      = (one - gateZ (fun k => x0 (ix2 p k)) (fun k => x1 (ix2 p k)) (fun k => x2 (ix2 p k)) (fun k j => x3 (ix2 k j)) (fun k j => x4 (ix2 k j)) (fun k j => x5 (ix2 k j)) (fun j => x6 (ix2 0 j)) q)
        * cand (fun k => x0 (ix2 p k)) (fun k => x1 (ix2 p k)) (fun k => x2 (ix2 p k)) (fun k j => x3 (ix2 k j)) (fun k j => x4 (ix2 k j)) (fun k j => x5 (ix2 k j)) (fun j => x6 (ix2 0 j)) q := by
  unfold k0_pay6 cand
  show (one - k0_pay5 x0 x1 x2 x3 x4 x5 x6 (ix2 p q))
      * Ideal.tanh (extractStridedSlice S128x1024 ![0, 2048] (k0_pay2 x2 x3) slices_S128x3072_o0_2048_S128x1024 (ix2 p q)
          + extractStridedSlice S128x1024 ![0, 2048] (k0_pay3 x1 x4) slices_S128x3072_o0_2048_S128x1024 (ix2 p q)
          + Ideal.logistic (extractStridedSlice S128x1024 ![0, 0] (k0_pay2 x2 x3) slices_S128x3072_o0_0_S128x1024 (ix2 p q)
              + extractStridedSlice S128x1024 ![0, 0] (k0_pay3 x1 x4) slices_S128x3072_o0_0_S128x1024 (ix2 p q)
              + extractStridedSlice S128x1024 ![0, 0] (k0_pay4 x0 x5 x6) slices_S128x3072_o0_0_S128x1024 (ix2 p q))
            * extractStridedSlice S128x1024 ![0, 2048] (k0_pay4 x0 x5 x6) slices_S128x3072_o0_2048_S128x1024 (ix2 p q)) = _
  rw [gateR_apply, pay5_apply, slice_apply 2048 _ _ p q (colN q) rfl, slice_apply 2048 _ _ p q (colN q) rfl, slice_apply 2048 _ _ p q (colN q) rfl,
    pay2_apply, pay3_apply, pay4_apply]

/-- The stored value at `(p, q)`: the new hidden state of row `p` at column `q`. -/
theorem newState_apply (p : Fin 128) (q : Fin 1024) :
    newState (F := Ideal) x0 x1 x2 x3 x4 x5 x6 (ix2 p q)
      = cell (fun k => x0 (ix2 p k)) (fun k => x1 (ix2 p k)) (fun k => x2 (ix2 p k)) (fun k j => x3 (ix2 k j)) (fun k j => x4 (ix2 k j)) (fun k j => x5 (ix2 k j)) (fun j => x6 (ix2 0 j)) q := by
  unfold newState
  simp only [View.ld_unit_zero (S := S128x1024) hz, View.ld_unit_zero (S := S128x512) hz, View.ld_unit_zero (S := S128x64) hz,
    View.ld_unit_zero (S := S64x3072) hz, View.ld_unit_zero (S := S512x3072) hz, View.ld_unit_zero (S := S1024x3072) hz,
    View.ld_unit_zero (S := S1x3072) hz]
  unfold k0_pay1 cell
  show k0_pay6 x0 x1 x2 x3 x4 x5 x6 (ix2 p q) + k0_pay5 x0 x1 x2 x3 x4 x5 x6 (ix2 p q) * x0 (ix2 p q) = _
  rw [pay6_apply, pay5_apply]

end Cert.KernelIdeal.Region

end
-- ==== Proof.KIValue.lean ====
/-
  From blocks to the whole array. The batch windows (hidden state, spikes, external inputs, and the output) move down
  the rows 128 at a time, grid point `t` holding rows `128 t … 128 t + 127`; the weight and bias windows are the whole
  arrays at every point. The weight arrays the region finds are the joined weights narrowed to bf16, which as extended
  reals are the joined weights themselves, and the bias row is the joined bias reshaped to one row. So the value the
  body stores at point `t` is rows `128 t …` of the specification's result array `G`; the thirty-two blocks tile the
  array, hence the result array ends holding `G`.
-/
import proofs.«113609_j37555194036855_1_alg».proof.Proof.KIRun
import proofs.«113609_j37555194036855_1_alg».proof.Proof.KIPay
import Idealize.ShloMosaic.Lib.StableHlo.Run

set_option maxRecDepth 16384

noncomputable section

namespace Cert.KernelIdeal.Region

open Cert.KernelIdeal Cert.KernelIdeal.Gen
open Idealize.ShloMosaic Idealize.ShloMosaic.TcCoe Idealize.ShloMosaic.StableHlo
open Idealize.SL Idealize.SL.Sem
open Idealize.ShloMosaic.ValueIdx
open Idealize.ShloMosaic.Pipeline (Dat)
open Cert.GruSpec

variable (m : (ℓ : Loc nD τ sig) → Buf (Elt Ideal) ℓ) (ρ : Dev nD → PrngReg)

/-! ## The joined weights and bias, as @main builds them from the arguments -/

abbrev WcK (c : Dev nD) : FVec Ideal S64x3072 .f32 :=
  concatenate S64x3072 1 [⟨S64x1024, m ((c : Thread nD τ).loc main_arg3)⟩, ⟨S64x1024, m ((c : Thread nD τ).loc main_arg5)⟩, ⟨S64x1024, m ((c : Thread nD τ).loc main_arg7)⟩] concatenates_S64x1024_S64x1024_S64x1024_S64x3072_d1
abbrev WxK (c : Dev nD) : FVec Ideal S512x3072 .f32 :=
  concatenate S512x3072 1 [⟨S512x1024, m ((c : Thread nD τ).loc main_arg4)⟩, ⟨S512x1024, m ((c : Thread nD τ).loc main_arg6)⟩, ⟨S512x1024, m ((c : Thread nD τ).loc main_arg8)⟩] concatenates_S512x1024_S512x1024_S512x1024_S512x3072_d1
abbrev WhK (c : Dev nD) : FVec Ideal S1024x3072 .f32 :=
  concatenate S1024x3072 1 [⟨S1024x1024, m ((c : Thread nD τ).loc main_arg9)⟩, ⟨S1024x1024, m ((c : Thread nD τ).loc main_arg11)⟩, ⟨S1024x1024, m ((c : Thread nD τ).loc main_arg13)⟩] concatenates_S1024x1024_S1024x1024_S1024x1024_S1024x3072_d1
abbrev bK (c : Dev nD) : FVec Ideal S3072 .f32 :=
  concatenate S3072 0 [⟨S1024, m ((c : Thread nD τ).loc main_arg10)⟩, ⟨S1024, m ((c : Thread nD τ).loc main_arg12)⟩, ⟨S1024, m ((c : Thread nD τ).loc main_arg14)⟩] concatenates_S1024_S1024_S1024_S3072_d0

/-- The result array the specification names, of this program's arguments. -/
def Garr (c : Dev nD) : S4096x1024.Idx → EReal :=
  G (m ((c : Thread nD τ).loc main_arg0)) (m ((c : Thread nD τ).loc main_arg1)) (m ((c : Thread nD τ).loc main_arg2)) (WcK m c) (WxK m c) (WhK m c) (bK m c)

/-! ## What the region finds in the arrays @main computed -/

theorem V_v1 (c : Dev nD) : (V m c main_v1 : S64x3072.Idx → EReal) = WcK m c := by
  dsimp only [V, hostOps0]; after_results; rfl
theorem V_v3 (c : Dev nD) : (V m c main_v3 : S512x3072.Idx → EReal) = WxK m c := by
  dsimp only [V, hostOps0]; after_results; rfl
theorem V_v5 (c : Dev nD) : (V m c main_v5 : S1024x3072.Idx → EReal) = WhK m c := by
  dsimp only [V, hostOps0]; after_results; rfl
theorem V_v7 (c : Dev nD) : (V m c main_v7 : S1x3072.Idx → EReal) = shapeCast S1x3072 (bK m c) shapeCasts_S3072_S1x3072 := by
  dsimp only [V, hostOps0]; after_results; rfl

/-! ## The windows' block indices over the grid -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `p` of the block at point `t` is row `128 t + p` of the batch. -/
def rowOf (t : Fin cfg0.N) (p : Fin 128) : Fin 4096 :=
  ⟨t.val * 128 + p.val, by have h32 : cfg0.N = 32 := N_0; have := t.isLt; have := p.isLt; omega⟩

/-! ## The blocks, read at an entry -/

theorem blk0_apply (c : Dev nD) (t : Fin cfg0.N) (p : Fin 128) (k : Fin 1024) :
    iblk m c 0 t (ix2 p k) = m ((c : Thread nD τ).loc main_arg0) (ix2 (rowOf t p) k) := by
  refine Eq.trans ?_ (congrFun (V_main_arg0 m c) _)
  show V m c main_arg0 (((cfg0.win 0).blk t).view.emb (ix2 p k)) = V m c main_arg0 (ix2 (rowOf t p) k)
  obtain ⟨e0, e1, -⟩ := idx_facts t
  refine congrArg (V m c main_arg0) (funext fun a => Fin.ext ?_)
  match a with
  | ⟨0, _⟩ => show win0_0.index t (0 : Fin 2) * 128 + 1 * p.val = t.val * 128 + p.val; omega
  | ⟨1, _⟩ => show win0_0.index t (1 : Fin 2) * 1024 + 1 * k.val = k.val; omega

theorem blk1_apply (c : Dev nD) (t : Fin cfg0.N) (p : Fin 128) (k : Fin 512) :
    iblk m c 1 t (ix2 p k) = m ((c : Thread nD τ).loc main_arg1) (ix2 (rowOf t p) k) := by
  refine Eq.trans ?_ (congrFun (V_main_arg1 m c) _)
  show V m c main_arg1 (((cfg0.win 1).blk t).view.emb (ix2 p k)) = V m c main_arg1 (ix2 (rowOf t p) k)
  obtain ⟨-, -, e0, e1, -⟩ := idx_facts t
  refine congrArg (V m c main_arg1) (funext fun a => Fin.ext ?_)
  match a with
  | ⟨0, _⟩ => show win0_1.index t (0 : Fin 2) * 128 + 1 * p.val = t.val * 128 + p.val; omega
  | ⟨1, _⟩ => show win0_1.index t (1 : Fin 2) * 512 + 1 * k.val = k.val; omega

theorem blk2_apply (c : Dev nD) (t : Fin cfg0.N) (p : Fin 128) (k : Fin 64) :
    iblk m c 2 t (ix2 p k) = m ((c : Thread nD τ).loc main_arg2) (ix2 (rowOf t p) k) := by
  refine Eq.trans ?_ (congrFun (V_main_arg2 m c) _)
  show V m c main_arg2 (((cfg0.win 2).blk t).view.emb (ix2 p k)) = V m c main_arg2 (ix2 (rowOf t p) k)
  obtain ⟨-, -, -, -, e0, e1, -⟩ := idx_facts t
  refine congrArg (V m c main_arg2) (funext fun a => Fin.ext ?_)
  match a with
  | ⟨0, _⟩ => show win0_2.index t (0 : Fin 2) * 128 + 1 * p.val = t.val * 128 + p.val; omega
  | ⟨1, _⟩ => show win0_2.index t (1 : Fin 2) * 64 + 1 * k.val = k.val; omega

theorem blk3_apply (c : Dev nD) (t : Fin cfg0.N) (k : Fin 64) (j : Fin 3072) :
    iblk m c 3 t (ix2 k j) = WcK m c (ix2 k j) := by
  refine Eq.trans ?_ (congrFun (V_v1 m c) _)
  show V m c main_v1 (((cfg0.win 3).blk t).view.emb (ix2 k j)) = V m c main_v1 (ix2 k j)
  obtain ⟨-, -, -, -, -, -, e0, e1, -⟩ := idx_facts t
  refine congrArg (V m c main_v1) (funext fun a => Fin.ext ?_)
  match a with
  | ⟨0, _⟩ => show win0_3.index t (0 : Fin 2) * 64 + 1 * k.val = k.val; omega
  | ⟨1, _⟩ => show win0_3.index t (1 : Fin 2) * 3072 + 1 * j.val = j.val; omega

theorem blk4_apply (c : Dev nD) (t : Fin cfg0.N) (k : Fin 512) (j : Fin 3072) :
    iblk m c 4 t (ix2 k j) = WxK m c (ix2 k j) := by
  refine Eq.trans ?_ (congrFun (V_v3 m c) _)
  show V m c main_v3 (((cfg0.win 4).blk t).view.emb (ix2 k j)) = V m c main_v3 (ix2 k j)
  obtain ⟨-, -, -, -, -, -, -, -, e0, e1, -⟩ := idx_facts t
  refine congrArg (V m c main_v3) (funext fun a => Fin.ext ?_)
  match a with
  | ⟨0, _⟩ => show win0_4.index t (0 : Fin 2) * 512 + 1 * k.val = k.val; omega
  | ⟨1, _⟩ => show win0_4.index t (1 : Fin 2) * 3072 + 1 * j.val = j.val; omega

theorem blk5_apply (c : Dev nD) (t : Fin cfg0.N) (k : Fin 1024) (j : Fin 3072) :
    iblk m c 5 t (ix2 k j) = WhK m c (ix2 k j) := by
  refine Eq.trans ?_ (congrFun (V_v5 m c) _)
  show V m c main_v5 (((cfg0.win 5).blk t).view.emb (ix2 k j)) = V m c main_v5 (ix2 k j)
  obtain ⟨-, -, -, -, -, -, -, -, -, -, e0, e1, -⟩ := idx_facts t
  refine congrArg (V m c main_v5) (funext fun a => Fin.ext ?_)
  match a with
  | ⟨0, _⟩ => show win0_5.index t (0 : Fin 2) * 1024 + 1 * k.val = k.val; omega
  | ⟨1, _⟩ => show win0_5.index t (1 : Fin 2) * 3072 + 1 * j.val = j.val; omega

theorem blk6_apply (c : Dev nD) (t : Fin cfg0.N) (j : Fin 3072) :
    iblk m c 6 t (ix2 0 j) = bK m c (ix1 j) := by
  have hrow : (shapeCast S1x3072 (bK m c) shapeCasts_S3072_S1x3072 : S1x3072.Idx → EReal) (ix2 0 j) = bK m c (ix1 j) := by
    refine shapeCast_apply (bK m c) shapeCasts_S3072_S1x3072 (ix2 0 j) (ix1 j) ?_
    rw [Shape.rowMajor_val_one, Shape.rowMajor_val_two]
    show j.val = 0 * 3072 + j.val
    omega
  refine Eq.trans ?_ ((congrFun (V_v7 m c) _).trans hrow)
  show V m c main_v7 (((cfg0.win 6).blk t).view.emb (ix2 0 j)) = V m c main_v7 (ix2 0 j)
  obtain ⟨-, -, -, -, -, -, -, -, -, -, -, -, e0, e1, -⟩ := idx_facts t
  refine congrArg (V m c main_v7) (funext fun a => Fin.ext ?_)
  match a with
  | ⟨0, _⟩ => show win0_6.index t (0 : Fin 2) * 1 + 1 * 0 = 0; omega
  | ⟨1, _⟩ => show win0_6.index t (1 : Fin 2) * 3072 + 1 * j.val = j.val; omega

/-! ## The stored value is the block of `G` -/

/-- At point `t`, entry `(p, q)` of the stored value is entry `(128 t + p, q)` of the result array. -/
theorem block_value (c : Dev nD) (t : Fin cfg0.N) (p : Fin 128) (q : Fin 1024) :
    newState (F := Ideal) (iblk m c 0 t) (iblk m c 1 t) (iblk m c 2 t) (iblk m c 3 t) (iblk m c 4 t) (iblk m c 5 t) (iblk m c 6 t) (ix2 p q) = Garr m c (ix2 (rowOf t p) q) := by
  rw [newState_apply]
  unfold Garr
  rw [G_ix2]
  simp only [blk0_apply, blk1_apply, blk2_apply, blk3_apply, blk4_apply, blk5_apply, blk6_apply]

/-- What point `t` writes back is block `t` of the result array. -/
theorem flushed_eq (c : Dev nD) (t : Fin cfg0.N) :
    (dats m 0 c).flushed 7 t = ((cfg0.win 7).blk t).view.read (Elt Ideal) (Garr m c) := by
  show (cfg0.win 7).cut (grid0.coords t) ((dats m 0 c).after 7 t) = _
  rw [after7]
  unfold outAt blockOut
  rw [View.canon_unit_zero hz]
  funext j
  show newState (F := Ideal) (iblk m c 0 t) (iblk m c 1 t) (iblk m c 2 t) (iblk m c 3 t) (iblk m c 4 t) (iblk m c 5 t) (iblk m c 6 t) j = Garr m c (((cfg0.win 7).blk t).view.emb j)
  obtain ⟨p, q, rfl⟩ : ∃ (p : Fin 128) (q : Fin 1024), j = ix2 p q := ⟨j 0, j 1, eq_ix2 j⟩
  rw [block_value]
  obtain ⟨-, -, -, -, -, -, -, -, -, -, -, -, -, -, e0, e1⟩ := idx_facts t
  refine congrArg (Garr m c) (funext fun a => Fin.ext ?_)
  match a with
  | ⟨0, _⟩ => show t.val * 128 + p.val = win0_7.index t (0 : Fin 2) * 128 + 1 * p.val; omega
  | ⟨1, _⟩ => show q.val = win0_7.index t (1 : Fin 2) * 1024 + 1 * q.val; omega

/-! ## The blocks tile the array -/

theorem mem_blk (t : Fin cfg0.N) (i : S4096x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v8).slice (win0_7.rect t)).set ↔ _
  rw [View.set_slice_whole, Rect.mem_set_unit]
  exact Iff.rfl

/-- Row `r` is in the block of point `r / 128`. -/
theorem cover (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  have h32 : cfg0.N = 32 := N_0
  refine ⟨⟨(i 0).val / 128, by omega⟩, flush0_7 _, ?_⟩
  rw [mem_blk]
  obtain ⟨-, -, -, -, -, -, -, -, -, -, -, -, -, -, e0, e1⟩ := idx_facts ⟨(i 0).val / 128, by omega⟩
  intro a
  match a with
  | ⟨0, _⟩ =>
    show win0_7.index ⟨(i 0).val / 128, _⟩ (0 : Fin 2) * 128 ≤ (i 0).val ∧ (i 0).val < win0_7.index ⟨(i 0).val / 128, _⟩ (0 : Fin 2) * 128 + 128
    rw [e0]; show (i 0).val / 128 * 128 ≤ (i 0).val ∧ (i 0).val < (i 0).val / 128 * 128 + 128; omega
  | ⟨1, _⟩ =>
    show win0_7.index ⟨(i 0).val / 128, _⟩ (1 : Fin 2) * 1024 ≤ (i 1).val ∧ (i 1).val < win0_7.index ⟨(i 0).val / 128, _⟩ (1 : Fin 2) * 1024 + 1024
    rw [e1]; omega

/-- The result array after the run. -/
theorem final (c : Dev nD) : (dats m 0 c).arrAt 7 cfg0.N = Garr m c :=
  (dats m 0 c).arrAt_eq_of_cover 7 (Garr m c) (fun t _ => flushed_eq m c t) cover

/-! ## The run, with the result named -/

/-- Every weakly fair execution terminates without a fault, the result array at `G` of the arguments and the arguments
    unchanged. -/
theorem run_value : θ_run defs (onTc (τ := τ) (main (F := Ideal))) ⟨m, fun _ => 0, ρ⟩ (fun r => ∀ c : Dev nD,
      r.2.mem ((c.tc : Thread nD τ).loc main_v8) = Garr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨((h c).1 7).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) (run_main m ρ)

end Cert.KernelIdeal.Region

end
-- ==== Proof.RefValue.lean ====
/-
  The reference's result, entry by entry. Its program joins the three weight matrices of each source along their columns
  and the three bias vectors end to end, takes the three whole-batch matrix products, adds the bias row to the hidden
  state's, cuts each product into the reset, update and candidate columns, and combines them pointwise, the logistic
  written out as `1 / (1 + exp (-x))`. Read at `(row, q)`: each product is the plain sum over the contracted position,
  a column slice at offset 0, 1024 or 2048 reads the joined column of that gate, the broadcast bias reads its entry,
  and the written-out logistic is the logistic function because the constant it divides and adds is `1`. So the result
  array is the specification's `G` of the three batch arrays against the joined weights and bias.
-/
import proofs.«113609_j37555194036855_1_alg».proof.Proof.Gen.ReferenceIdeal.Run
import proofs.«113609_j37555194036855_1_alg».proof.Proof.Gen.ReferenceIdeal.Read
import proofs.«113609_j37555194036855_1_alg».proof.Proof.Spec
import proofs.«113609_j37555194036855_1_alg».proof.Proof.LibPlainDot
import Idealize.ShloMosaic.Lib.IdealHost

set_option maxRecDepth 16384

noncomputable section

namespace Cert.ReferenceIdeal.RefValue

open Cert.ReferenceIdeal Cert.ReferenceIdeal.Gen Cert.ReferenceIdeal.Read
open Idealize.ShloMosaic Idealize.ShloMosaic.ValueIdx
open Cert.GruSpec

variable (x0 : (⟨S4096x1024, .f32⟩ : BufTy).Contents (Elt Ideal)) (x1 : (⟨S4096x512, .f32⟩ : BufTy).Contents (Elt Ideal)) (x2 : (⟨S4096x64, .f32⟩ : BufTy).Contents (Elt Ideal))
  (x3 : (⟨S64x1024, .f32⟩ : BufTy).Contents (Elt Ideal)) (x4 : (⟨S512x1024, .f32⟩ : BufTy).Contents (Elt Ideal)) (x5 : (⟨S64x1024, .f32⟩ : BufTy).Contents (Elt Ideal)) (x6 : (⟨S512x1024, .f32⟩ : BufTy).Contents (Elt Ideal)) (x7 : (⟨S64x1024, .f32⟩ : BufTy).Contents (Elt Ideal)) (x8 : (⟨S512x1024, .f32⟩ : BufTy).Contents (Elt Ideal))
  (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal))

/-- The joined weights of the external inputs, of the spike inputs and of the hidden state, and the joined bias. -/
abbrev Wc (x3 x5 x7 : (⟨S64x1024, .f32⟩ : BufTy).Contents (Elt Ideal)) : (⟨S64x3072, .f32⟩ : BufTy).Contents (Elt Ideal) := val_main_v0 (F := Ideal) x3 x5 x7
abbrev Wx (x4 x6 x8 : (⟨S512x1024, .f32⟩ : BufTy).Contents (Elt Ideal)) : (⟨S512x3072, .f32⟩ : BufTy).Contents (Elt Ideal) := val_main_v1 (F := Ideal) x4 x6 x8
abbrev Wh (x9 x11 x13 : (⟨S1024x1024, .f32⟩ : BufTy).Contents (Elt Ideal)) : (⟨S1024x3072, .f32⟩ : BufTy).Contents (Elt Ideal) := val_main_v2 (F := Ideal) x9 x11 x13
abbrev bh (x10 x12 x14 : (⟨S1024, .f32⟩ : BufTy).Contents (Elt Ideal)) : (⟨S3072, .f32⟩ : BufTy).Contents (Elt Ideal) := val_main_v3 (F := Ideal) x10 x12 x14

/-- The constant both programs spell `0x3F800000` is the real number one. -/
theorem one_eq : one = 1 := Ideal.ofBits_one_f32

/-- The three products at `(r, j)`. -/
theorem gc_apply (r : Fin 4096) (j : Fin 3072) :
    val_main_v4 (F := Ideal) x2 x3 x5 x7 (ix2 r j) = proj (fun k => x2 (ix2 r k)) (fun k j => Wc x3 x5 x7 (ix2 k j)) j := by
  unfold val_main_v4
  exact PlainDot.dotGeneral_apply dot_S4096x64_S64x3072_S4096x3072_1_0_0_1_n_n rfl none _ _ r j
theorem gx_apply (r : Fin 4096) (j : Fin 3072) :
    val_main_v5 (F := Ideal) x1 x4 x6 x8 (ix2 r j) = proj (fun k => x1 (ix2 r k)) (fun k j => Wx x4 x6 x8 (ix2 k j)) j := by
  unfold val_main_v5
  exact PlainDot.dotGeneral_apply dot_S4096x512_S512x3072_S4096x3072_1_0_0_1_n_n rfl none _ _ r j
theorem gh0_apply (r : Fin 4096) (j : Fin 3072) :
    val_main_v6 (F := Ideal) x0 x9 x11 x13 (ix2 r j) = proj (fun k => x0 (ix2 r k)) (fun k j => Wh x9 x11 x13 (ix2 k j)) j := by
  unfold val_main_v6
  exact PlainDot.dotGeneral_apply dot_S4096x1024_S1024x3072_S4096x3072_1_0_0_1_n_n rfl none _ _ r j

/-- The broadcast bias at `(r, j)` is the joined bias at `j`. -/
theorem bias_apply (r : Fin 4096) (j : Fin 3072) :
    val_main_v8 (F := Ideal) x10 x12 x14 (ix2 r j) = bh x10 x12 x14 (ix1 j) := by
  rw [val_main_v8_apply, val_main_v7_apply]
  refine congrArg (val_main_v3 (F := Ideal) x10 x12 x14) (funext fun a => ?_)
  match a with
  | ⟨0, _⟩ => rfl

/-- The hidden state's product with its bias. -/
theorem gh_apply (r : Fin 4096) (j : Fin 3072) :
    val_main_v9 (F := Ideal) x0 x9 x10 x11 x12 x13 x14 (ix2 r j)
      = hid (fun k => x0 (ix2 r k)) (fun k j => Wh x9 x11 x13 (ix2 k j)) (fun j => bh x10 x12 x14 (ix1 j)) j := by
  show val_main_v6 (F := Ideal) x0 x9 x11 x13 (ix2 r j) + val_main_v8 (F := Ideal) x10 x12 x14 (ix2 r j) = _
  rw [gh0_apply, bias_apply]; rfl

/-- A column slice of a `[4096, 3072]` value at offset `o`, read at `(r, q)`, is the value at `(r, o + q)`. -/
theorem slice_apply (o : Nat) (h : S4096x3072.Slices ![0, o] S4096x1024) (v : FVec Ideal S4096x3072 .f32) (r : Fin 4096) (q : Fin 1024)
    (j : Fin 3072) (hj : j.val = o + q.val) :
    extractStridedSlice S4096x1024 ![0, o] v h (ix2 r q) = v (ix2 r j) := by
  refine extractStridedSlice_apply ![0, o] v h (ix2 r q) (ix2 r j) fun a => ?_
  match a with
  | ⟨0, _⟩ => show r.val = 0 + r.val; omega
  | ⟨1, _⟩ => show j.val = o + q.val; exact hj

/-- The broadcast constants are `one` everywhere. -/
theorem c23 (i : S4096x1024.Idx) : val_main_v23 (F := Ideal) i = one := by rw [val_main_v23_apply]; rfl
theorem c25 (i : S4096x1024.Idx) : val_main_v25 (F := Ideal) i = one := by rw [val_main_v25_apply]; rfl
theorem c31 (i : S4096x1024.Idx) : val_main_v31 (F := Ideal) i = one := by rw [val_main_v31_apply]; rfl
theorem c33 (i : S4096x1024.Idx) : val_main_v33 (F := Ideal) i = one := by rw [val_main_v33_apply]; rfl
theorem c39 (i : S4096x1024.Idx) : val_main_v39 (F := Ideal) i = one := by rw [val_main_v39_apply]; rfl

/-- The logistic written out with the constant `one` is the logistic function. -/
theorem logistic_spelt (y : EReal) : Ideal.div one (one + Ideal.exp (-y)) = Ideal.logistic y := by
  rw [one_eq]; rfl

/-- The reset gate. -/
theorem r_apply (r : Fin 4096) (q : Fin 1024) :
    val_main_v26 (F := Ideal) x0 x1 x2 x3 x4 x5 x6 x7 x8 x9 x10 x11 x12 x13 x14 (ix2 r q) = gateR (fun k => x0 (ix2 r k)) (fun k => x1 (ix2 r k)) (fun k => x2 (ix2 r k)) (fun k j => Wc x3 x5 x7 (ix2 k j)) (fun k j => Wx x4 x6 x8 (ix2 k j)) (fun k j => Wh x9 x11 x13 (ix2 k j)) (fun j => bh x10 x12 x14 (ix1 j)) q := by
  show Ideal.div (val_main_v25 (F := Ideal) (ix2 r q)) (val_main_v23 (F := Ideal) (ix2 r q) + Ideal.exp (-(
      extractStridedSlice S4096x1024 ![0, 0] (val_main_v4 (F := Ideal) x2 x3 x5 x7) slices_S4096x3072_S4096x1024_0_0 (ix2 r q)
      + extractStridedSlice S4096x1024 ![0, 0] (val_main_v5 (F := Ideal) x1 x4 x6 x8) slices_S4096x3072_S4096x1024_0_0 (ix2 r q)
      + extractStridedSlice S4096x1024 ![0, 0] (val_main_v9 (F := Ideal) x0 x9 x10 x11 x12 x13 x14) slices_S4096x3072_S4096x1024_0_0 (ix2 r q)))) = _
  rw [c25, c23, logistic_spelt, slice_apply 0 _ _ r q (colR q) (by show q.val = 0 + q.val; omega), slice_apply 0 _ _ r q (colR q) (by show q.val = 0 + q.val; omega),
    slice_apply 0 _ _ r q (colR q) (by show q.val = 0 + q.val; omega), gc_apply, gx_apply, gh_apply]
  rfl

/-- The update gate. -/
theorem z_apply (r : Fin 4096) (q : Fin 1024) :
    val_main_v34 (F := Ideal) x0 x1 x2 x3 x4 x5 x6 x7 x8 x9 x10 x11 x12 x13 x14 (ix2 r q) = gateZ (fun k => x0 (ix2 r k)) (fun k => x1 (ix2 r k)) (fun k => x2 (ix2 r k)) (fun k j => Wc x3 x5 x7 (ix2 k j)) (fun k j => Wx x4 x6 x8 (ix2 k j)) (fun k j => Wh x9 x11 x13 (ix2 k j)) (fun j => bh x10 x12 x14 (ix1 j)) q := by
  show Ideal.div (val_main_v33 (F := Ideal) (ix2 r q)) (val_main_v31 (F := Ideal) (ix2 r q) + Ideal.exp (-(
      extractStridedSlice S4096x1024 ![0, 1024] (val_main_v4 (F := Ideal) x2 x3 x5 x7) slices_S4096x3072_S4096x1024_0_1024 (ix2 r q)
      + extractStridedSlice S4096x1024 ![0, 1024] (val_main_v5 (F := Ideal) x1 x4 x6 x8) slices_S4096x3072_S4096x1024_0_1024 (ix2 r q)
      + extractStridedSlice S4096x1024 ![0, 1024] (val_main_v9 (F := Ideal) x0 x9 x10 x11 x12 x13 x14) slices_S4096x3072_S4096x1024_0_1024 (ix2 r q)))) = _
  rw [c33, c31, logistic_spelt, slice_apply 1024 _ _ r q (colZ q) rfl, slice_apply 1024 _ _ r q (colZ q) rfl,
    slice_apply 1024 _ _ r q (colZ q) rfl, gc_apply, gx_apply, gh_apply]
  rfl

/-- The candidate. -/
theorem n_apply (r : Fin 4096) (q : Fin 1024) :
    val_main_v38 (F := Ideal) x0 x1 x2 x3 x4 x5 x6 x7 x8 x9 x10 x11 x12 x13 x14 (ix2 r q) = cand (fun k => x0 (ix2 r k)) (fun k => x1 (ix2 r k)) (fun k => x2 (ix2 r k)) (fun k j => Wc x3 x5 x7 (ix2 k j)) (fun k j => Wx x4 x6 x8 (ix2 k j)) (fun k j => Wh x9 x11 x13 (ix2 k j)) (fun j => bh x10 x12 x14 (ix1 j)) q := by
  show Ideal.tanh (
      extractStridedSlice S4096x1024 ![0, 2048] (val_main_v4 (F := Ideal) x2 x3 x5 x7) slices_S4096x3072_S4096x1024_0_2048 (ix2 r q)
      + extractStridedSlice S4096x1024 ![0, 2048] (val_main_v5 (F := Ideal) x1 x4 x6 x8) slices_S4096x3072_S4096x1024_0_2048 (ix2 r q)
      + val_main_v26 (F := Ideal) x0 x1 x2 x3 x4 x5 x6 x7 x8 x9 x10 x11 x12 x13 x14 (ix2 r q)
        * extractStridedSlice S4096x1024 ![0, 2048] (val_main_v9 (F := Ideal) x0 x9 x10 x11 x12 x13 x14) slices_S4096x3072_S4096x1024_0_2048 (ix2 r q)) = _
  rw [r_apply, slice_apply 2048 _ _ r q (colN q) rfl, slice_apply 2048 _ _ r q (colN q) rfl,
    slice_apply 2048 _ _ r q (colN q) rfl, gc_apply, gx_apply, gh_apply]
  rfl

/-- The reference's result array is the specification's. -/
theorem ref_eq :
    val_main_v43 (F := Ideal) x0 x1 x2 x3 x4 x5 x6 x7 x8 x9 x10 x11 x12 x13 x14 = G x0 x1 x2 (Wc x3 x5 x7) (Wx x4 x6 x8) (Wh x9 x11 x13) (bh x10 x12 x14) := by
  funext i
  obtain ⟨r, q, rfl⟩ : ∃ (r : Fin 4096) (q : Fin 1024), i = ix2 r q := ⟨i 0, i 1, eq_ix2 i⟩
  rw [G_ix2]
  show (val_main_v39 (F := Ideal) (ix2 r q) - val_main_v34 (F := Ideal) x0 x1 x2 x3 x4 x5 x6 x7 x8 x9 x10 x11 x12 x13 x14 (ix2 r q)) * val_main_v38 (F := Ideal) x0 x1 x2 x3 x4 x5 x6 x7 x8 x9 x10 x11 x12 x13 x14 (ix2 r q)
      + val_main_v34 (F := Ideal) x0 x1 x2 x3 x4 x5 x6 x7 x8 x9 x10 x11 x12 x13 x14 (ix2 r q) * x0 (ix2 r q) = _
  rw [c39, z_apply, n_apply]
  rfl

end Cert.ReferenceIdeal.RefValue

end
-- ==== Proof.lean ====
/-
  A GRU cell over a batch of 4096 rows, a pipelined kernel against plain array code.

  Both programs join the reset, update and candidate weights of each source along their columns, take three matrix
  products (external inputs, spike inputs, hidden state with its bias row), cut each into the three gates' columns and
  combine them: `r = logistic (…)`, `z = logistic (…)`, `n = tanh (… + r * …)`, `new h = (1 - z) * n + z * h`. The kernel
  does it 128 rows at a time with the weights narrowed to bf16; the reference does it on the whole batch and writes the
  logistic out as `1 / (1 + exp (-x))`.

  Over the extended reals a change of float format is the identity, a product into the zero accumulator and the array
  product are the same sum over the contracted position, and the written-out logistic with the constant one is the
  logistic function. So each side's result array is one function `G` of the arguments, entry by entry, with the sums
  grouped the same way on both sides: no law of arithmetic beyond that is used, and the inputs' finiteness is not needed.

  The frames: the kernel body reads its seven input buffers whole and overwrites its output buffer whole, so the
  pipeline's thirty-two points run, and no operation writes an argument array. The idealized kernel is the kernel's own
  text read over the extended reals: nothing was rewritten, so there is nothing to preserve.
-/
import proofs.«113609_j37555194036855_1_alg».proof.Defs
import proofs.«113609_j37555194036855_1_alg».proof.Proof.Gen.Kernel
import proofs.«113609_j37555194036855_1_alg».proof.Proof.Gen.KernelIdeal
import proofs.«113609_j37555194036855_1_alg».proof.Proof.Gen.ReferenceIdeal
import proofs.«113609_j37555194036855_1_alg».proof.Proof.Gen.Pre_finite_inputs
import proofs.«113609_j37555194036855_1_alg».proof.Proof.KRun
import proofs.«113609_j37555194036855_1_alg».proof.Proof.KIValue
import proofs.«113609_j37555194036855_1_alg».proof.Proof.RefValue

set_option maxRecDepth 16384

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Region.frame m ρ

/-- So does the kernel read over the extended reals. -/
theorem frame_ki : Cert.frame_KernelIdeal := fun m ρ _ => Cert.KernelIdeal.Region.frame m ρ

/-- The reference is host operations only: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- From memories that agree on the arguments both programs end with the result array at `G` of the arguments. -/
theorem algebraic : Cert.algebraic_KernelIdeal_ReferenceIdeal := by
  intro m ρ m' ρ' _ hagree
  refine ⟨fun c => Cert.KernelIdeal.Region.Garr m c, fun c => Cert.KernelIdeal.Region.Garr m c, ?_, ?_⟩
  · exact (θ_run Cert.KernelIdeal.defs _ _).mono (fun r h c => ⟨(h c).1, (h c).1, (h c).2⟩) (Cert.KernelIdeal.Region.run_value m ρ)
  · have href : ∀ c, Cert.ReferenceIdeal.Value.res_main_v43 m' c = Cert.KernelIdeal.Region.Garr m c := fun c => by
      obtain ⟨a0, a1, a2, a3, a4, a5, a6, a7, a8, a9, a10, a11, a12, a13, a14⟩ := hagree c
      rw [Cert.ReferenceIdeal.Read.val_main_v43_eq, Cert.ReferenceIdeal.RefValue.ref_eq,
        a0, a1, a2, a3, a4, a5, a6, a7, a8, a9, a10, a11, a12, a13, a14]
      rfl
    exact (θ_run Cert.ReferenceIdeal.defs _ _).mono
      (fun r h c => ⟨(h c).1.trans (href c), (h c).1.trans (href c), (h c).2.2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
